-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S2x524288 : Shape := ⟨2, ![2, 524288]⟩
abbrev S32x32 : Shape := ⟨2, ![32, 32]⟩
abbrev S32 : Shape := ⟨1, ![32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S16384x32 .f32) (main_arg1 : IVec S2x524288 32) (main_arg2 : FVec F S32x32 .f32) (main_arg3 : FVec F S32 .f32) (main_arg4 : FVec F S32x32 .f32) (main_arg5 : FVec F S32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S16384x32 : Shape := ⟨2, ![16384, 32]⟩
abbrev S2x524288 : Shape := ⟨2, ![2, 524288]⟩
abbrev S32x32 : Shape := ⟨2, ![32, 32]⟩
abbrev S32 : Shape := ⟨1, ![32]⟩
abbrev S1x524288 : Shape := ⟨2, ![1, 524288]⟩
abbrev S524288 : Shape := ⟨1, ![524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S1x32 : Shape := ⟨2, ![1, 32]⟩
abbrev S1024x4096 : Shape := ⟨2, ![1024, 4096]⟩
abbrev S4096x32 : Shape := ⟨2, ![4096, 32]⟩
abbrev S1024x32 : Shape := ⟨2, ![1024, 32]⟩

abbrev nBuf : Space → Nat
  | .hbm => 58
  | .vmem => 13
  | .smem => 0
  | _ => 0

abbrev bufTy : (tb : Table) → Fin (tcTables nBuf tb) → BufTy
  | .hbm, ⟨0, _⟩ => ⟨S16384x32, .f32⟩
  | .hbm, ⟨1, _⟩ => ⟨S2x524288, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x524288, .i32⟩
  | .hbm, ⟨7, _⟩ => ⟨S524288, .i32⟩
  | .hbm, ⟨8, _⟩ => ⟨S1x524288, .i32⟩
  | .hbm, ⟨9, _⟩ => ⟨S524288, .i32⟩
  | .hbm, ⟨10, _⟩ => ⟨S_, .bf16⟩
  | .hbm, ⟨11, _⟩ => ⟨S16384x16384, .bf16⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S_, .i32⟩
  | .hbm, ⟨20, _⟩ => ⟨S524288, .i32⟩
  | .hbm, ⟨21, _⟩ => ⟨S524288, .i1⟩
  | .hbm, ⟨22, _⟩ => ⟨S_, .i32⟩
  | .hbm, ⟨23, _⟩ => ⟨S524288, .i32⟩
  | .hbm, ⟨24, _⟩ => ⟨S524288, .i32⟩
  | .hbm, ⟨25, _⟩ => ⟨S524288, .i32⟩
  | .hbm, ⟨26, _⟩ => ⟨S524288x1, .i32⟩
  | .hbm, ⟨27, _⟩ => ⟨S524288x1, .i32⟩
  | .hbm, ⟨28, _⟩ => ⟨S524288x2, .i32⟩
  | .hbm, ⟨29, _⟩ => ⟨S_, .bf16⟩
  | .hbm, ⟨30, _⟩ => ⟨S524288, .bf16⟩
  | .hbm, ⟨31, _⟩ => ⟨S16384x16384, .bf16⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S_, .i32⟩
  | .hbm, ⟨36, _⟩ => ⟨S524288, .i32⟩
  | .hbm, ⟨37, _⟩ => ⟨S524288, .i32⟩
  | .hbm, ⟨38, _⟩ => ⟨S524288, .i32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S524288x1, .i32⟩
  | .hbm, ⟨48, _⟩ => ⟨S524288x2, .i32⟩
  | .hbm, ⟨49, _⟩ => ⟨S_, .bf16⟩
  | .hbm, ⟨50, _⟩ => ⟨S524288, .bf16⟩
  | .hbm, ⟨51, _⟩ => ⟨S16384x16384, .bf16⟩
  | .hbm, ⟨52, _⟩ => ⟨S16384x32, .bf16⟩
  | .hbm, ⟨53, _⟩ => ⟨S32x32, .f32⟩
  | .hbm, ⟨54, _⟩ => ⟨S32x32, .f32⟩
  | .hbm, ⟨55, _⟩ => ⟨S1x32, .f32⟩
  | .hbm, ⟨56, _⟩ => ⟨S1x32, .f32⟩
  | .hbm, ⟨57, _⟩ => ⟨S16384x32, .f32⟩
  | .local _ .vmem, ⟨0, _⟩ => ⟨S1024x4096, .bf16⟩
  | .local _ .vmem, ⟨1, _⟩ => ⟨S1024x4096, .bf16⟩
  | .local _ .vmem, ⟨2, _⟩ => ⟨S4096x32, .bf16⟩
  | .local _ .vmem, ⟨3, _⟩ => ⟨S4096x32, .bf16⟩
  | .local _ .vmem, ⟨4, _⟩ => ⟨S1024x32, .f32⟩
  | .local _ .vmem, ⟨5, _⟩ => ⟨S1024x32, .f32⟩
  | .local _ .vmem, ⟨6, _⟩ => ⟨S32x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bitsLt_bf16_f32 : FTy.bits .bf16 < FTy.bits .f32
  transposes_S32x32_S32x32_1_0 : S32x32.Transposes [1, 0] S32x32
  shapeCasts_S32_S1x32 : S32.ShapeCasts S1x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  scatter_S16384x16384_S524288x2_S524288_n_01_01_1_wf : ScatterDims.WF S16384x16384 S524288x2 S524288 [] [0, 1] [0, 1] 1
  dot_S1024x4096_S4096x32_S1024x32_1_0_0_1_n_n_wf : DotDims.WF S1024x4096 S4096x32 S1024x32 [1] [0] [0] [1] [] []
  dot_S1024x32_S32x32_S1024x32_1_0_0_1_n_n_wf : DotDims.WF S1024x32 S32x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x16384.size a
  hwx0_0 : ∀ i : grid0.Coords, EltTy.bits .bf16 = 32 ∨ (Rect.block (s := S16384x16384) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S16384x32.size a
  hwx0_1 : ∀ i : grid0.Coords, EltTy.bits .bf16 = 32 ∨ (Rect.block (s := S16384x32) S4096x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x32.size a ≤ S16384x32.size a
  hwx0_7 : ∀ i : grid0.Coords, EltTy.bits .f32 = 32 ∨ (Rect.block (s := S16384x32) S1024x32.size (cc0_transform_7 i) (hinb0_7 i)).WholeWords (EltTy.packing .f32)

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf

abbrev win0_0 : Pipeline.Window sig grid0 :=
  Pipeline.Window.ofSpec (Memref.whole main_v34) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1024x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16384x32 : Shape := ⟨2, ![16384, 32]⟩
abbrev S2x524288 : Shape := ⟨2, ![2, 524288]⟩
abbrev S32x32 : Shape := ⟨2, ![32, 32]⟩
abbrev S32 : Shape := ⟨1, ![32]⟩
abbrev S1x524288 : Shape := ⟨2, ![1, 524288]⟩
abbrev S524288 : Shape := ⟨1, ![524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S1x32 : Shape := ⟨2, ![1, 32]⟩

abbrev nBuf : Space → Nat
  | .hbm => 64
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S2x524288, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x524288, .i32⟩
  | .hbm, ⟨7, _⟩ => ⟨S524288, .i32⟩
  | .hbm, ⟨8, _⟩ => ⟨S1x524288, .i32⟩
  | .hbm, ⟨9, _⟩ => ⟨S524288, .i32⟩
  | .hbm, ⟨10, _⟩ => ⟨S_, .f32⟩
  | .hbm, ⟨11, _⟩ => ⟨S16384x16384, .f32⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S_, .i32⟩
  | .hbm, ⟨20, _⟩ => ⟨S524288, .i32⟩
  | .hbm, ⟨21, _⟩ => ⟨S524288, .i1⟩
  | .hbm, ⟨22, _⟩ => ⟨S_, .i32⟩
  | .hbm, ⟨23, _⟩ => ⟨S524288, .i32⟩
  | .hbm, ⟨24, _⟩ => ⟨S524288, .i32⟩
  | .hbm, ⟨25, _⟩ => ⟨S524288, .i32⟩
  | .hbm, ⟨26, _⟩ => ⟨S524288x1, .i32⟩
  | .hbm, ⟨27, _⟩ => ⟨S524288x1, .i32⟩
  | .hbm, ⟨28, _⟩ => ⟨S524288x2, .i32⟩
  | .hbm, ⟨29, _⟩ => ⟨S_, .f32⟩
  | .hbm, ⟨30, _⟩ => ⟨S524288, .f32⟩
  | .hbm, ⟨31, _⟩ => ⟨S16384x16384, .f32⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S_, .i32⟩
  | .hbm, ⟨36, _⟩ => ⟨S524288, .i32⟩
  | .hbm, ⟨37, _⟩ => ⟨S524288, .i32⟩
  | .hbm, ⟨38, _⟩ => ⟨S524288, .i32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S524288x1, .i32⟩
  | .hbm, ⟨48, _⟩ => ⟨S524288x2, .i32⟩
  | .hbm, ⟨49, _⟩ => ⟨S_, .f32⟩
  | .hbm, ⟨50, _⟩ => ⟨S524288, .f32⟩
  | .hbm, ⟨51, _⟩ => ⟨S16384x16384, .f32⟩
  | .hbm, ⟨52, _⟩ => ⟨S16384x32, .f32⟩
  | .hbm, ⟨53, _⟩ => ⟨S32x32, .f32⟩
  | .hbm, ⟨54, _⟩ => ⟨S16384x32, .f32⟩
  | .hbm, ⟨55, _⟩ => ⟨S1x32, .f32⟩
  | .hbm, ⟨56, _⟩ => ⟨S16384x32, .f32⟩
  | .hbm, ⟨57, _⟩ => ⟨S16384x32, .f32⟩
  | .hbm, ⟨58, _⟩ => ⟨S32x32, .f32⟩
  | .hbm, ⟨59, _⟩ => ⟨S16384x32, .f32⟩
  | .hbm, ⟨60, _⟩ => ⟨S1x32, .f32⟩
  | .hbm, ⟨61, _⟩ => ⟨S16384x32, .f32⟩
  | .hbm, ⟨62, _⟩ => ⟨S16384x32, .f32⟩
  | .hbm, ⟨63, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  transposes_S32x32_S32x32_1_0 : S32x32.Transposes [1, 0] S32x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  scatter_S16384x16384_S524288x2_S524288_n_01_01_1_wf : ScatterDims.WF S16384x16384 S524288x2 S524288 [] [0, 1] [0, 1] 1
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

class Facts : Prop extends Facts₀ where

variable [Facts]
-- ==== Proof.Layer.lean ====
/-
  One message-passing layer over a dense adjacency matrix, written once as a function of its arrays over the extended reals.

  For node r and output channel d the layer is

      ( Σ_j X(r, j) · Wu(j, d) + bu(d) )  +  ( Σ_j msg(r, j) · Wa(j, d) + ba(d) ),      msg(r, j) = Σ_n A(r, n) · X(n, j),

  with A the 16384 × 16384 adjacency, X the 16384 × 32 node features, Wa and Wu the two 32 × 32 weight matrices as they are
  multiplied (already transposed) and ba, bu the two bias vectors.

  The message is a sum over all 16384 columns of A. It can also be reached in four strides of 4096 columns: the partial sum
  over the first 4096·k columns, plus the sum over the next 4096, is the partial sum over the first 4096·(k+1). Only that
  addition is commutative and associative is used, so nothing here asks any entry to be finite.
-/
import Idealize.ShloMosaic.PureOps.Ideal
import Idealize.ShloMosaic.Lib.ValueIdx
import Mathlib.Algebra.BigOperators.Fin

noncomputable section

open scoped BigOperators
open Idealize.ShloMosaic Idealize.ShloMosaic.ValueIdx

namespace Cert.GraphLayer

/-- The adjacency's shape, the features' shape, a weight matrix's shape, a bias vector's shape. -/
abbrev SAdj : Shape := ⟨2, ![16384, 16384]⟩
abbrev SFeat : Shape := ⟨2, ![16384, 32]⟩
abbrev SWt : Shape := ⟨2, ![32, 32]⟩
abbrev SBias : Shape := ⟨1, ![32]⟩

variable (A : SAdj.Idx → EReal) (X : SFeat.Idx → EReal)

/-- Column n's contribution to the message of node r in channel j; zero past the last column, so that it is a function of
    a natural number and partial sums over ranges of columns can be written. -/
def contrib (r : Fin 16384) (j : Fin 32) (n : ℕ) : EReal :=
  if h : n < 16384 then A (ix2 r ⟨n, h⟩) * X (ix2 ⟨n, h⟩ j) else 0

theorem contrib_of_lt (r : Fin 16384) (j : Fin 32) (n : ℕ) (h : n < 16384) :
    contrib A X r j n = A (ix2 r ⟨n, h⟩) * X (ix2 ⟨n, h⟩ j) := dif_pos h

/-- The message of node r in channel j: row r of the adjacency against column j of the features. -/
def message (r : Fin 16384) (j : Fin 32) : EReal := ∑ n : Fin 16384, A (ix2 r n) * X (ix2 n j)

/-- The message restricted to the first 4096·k columns of the adjacency. -/
def partialMessage (r : Fin 16384) (j : Fin 32) (k : ℕ) : EReal := ∑ n ∈ Finset.range (4096 * k), contrib A X r j n

theorem partialMessage_zero (r : Fin 16384) (j : Fin 32) : partialMessage A X r j 0 = 0 := by
  unfold partialMessage; simp

/-- One stride: the next 4096 columns added to the partial sum. -/
theorem partialMessage_succ (r : Fin 16384) (j : Fin 32) (k : ℕ) (hk : k < 4) :
    partialMessage A X r j (k + 1)
      = partialMessage A X r j k
        + ∑ n : Fin 4096, A (ix2 r ⟨4096 * k + n.val, by have := n.isLt; omega⟩) * X (ix2 ⟨4096 * k + n.val, by have := n.isLt; omega⟩ j) := by
  unfold partialMessage
  rw [show 4096 * (k + 1) = 4096 * k + 4096 by ring, Finset.sum_range_add]
  congr 1
  rw [← Fin.sum_univ_eq_sum_range (fun x => contrib A X r j (4096 * k + x)) 4096]
  exact Finset.sum_congr rfl fun n _ => contrib_of_lt A X r j _ _

/-- After four strides the partial sum is the whole message. -/
theorem partialMessage_four (r : Fin 16384) (j : Fin 32) : partialMessage A X r j 4 = message A X r j := by
  unfold partialMessage message
  rw [show 4096 * 4 = 16384 by norm_num, ← Fin.sum_univ_eq_sum_range (fun x => contrib A X r j x) 16384]
  exact Finset.sum_congr rfl fun n _ => contrib_of_lt A X r j _ n.isLt

variable (Wa Wu : SWt.Idx → EReal) (ba bu : SBias.Idx → EReal)

/-- The layer at node r, channel d. -/
def layerAt (r : Fin 16384) (d : Fin 32) : EReal :=
  ((∑ j : Fin 32, X (ix2 r j) * Wu (ix2 j d)) + bu (ix1 d)) + ((∑ j : Fin 32, message A X r j * Wa (ix2 j d)) + ba (ix1 d))

/-- The layer as one array. -/
def layer : SFeat.Idx → EReal := fun i => layerAt A X Wa Wu ba bu (i 0) (i 1)

theorem layer_apply (r : Fin 16384) (d : Fin 32) : layer A X Wa Wu ba bu (ix2 r d) = layerAt A X Wa Wu ba bu r d := rfl

end Cert.GraphLayer

end
-- ==== Proof.ReferenceLayer.lean ====
/-
  The reference program's result is the layer.

  Read one entry (r, d) at a time, at the ideal values, the reference's last array is

      ( Σ_j x(r, j) · Wuᵀ(j, d) + bu(d) )  +  ( Σ_j ( Σ_n A(r, n) · x(n, j) ) · Waᵀ(j, d) + ba(d) ),

  where A is the array its two scatters leave (never opened here), Waᵀ and Wuᵀ are its two transposes, and each bias is spread
  first to one row and then down the rows. Its three matrix products are sums over their one contracted coordinate; what is
  left to say is that the coordinates those sums read are the ones the layer names.
-/
import proofs.«166728_j14061722927248_1_alg».proof.Proof.Gen.ReferenceIdeal.Read
import proofs.«166728_j14061722927248_1_alg».proof.Proof.Layer

noncomputable section

open scoped BigOperators
open Idealize.ShloMosaic Idealize.ShloMosaic.ValueIdx

namespace Cert.ReferenceIdeal.AsLayer

open Cert.ReferenceIdeal Cert.ReferenceIdeal.Read Cert.GraphLayer

/-- The reference's result array is the layer of its own adjacency, features, transposed weights and biases. -/
theorem result_eq (x0 : (⟨S16384x32, .f32⟩ : BufTy).Contents (Elt Ideal)) (x1 : (⟨S2x524288, .i32⟩ : BufTy).Contents (Elt Ideal))
    (x2 : (⟨S32x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) :
    val_main_v46 (F := Ideal) x0 x1 x2 x3 x4 x5
      = layer (val_main_v34 (F := Ideal) x1) x0 (val_main_v36 (F := Ideal) x2) (val_main_v41 (F := Ideal) x4) x3 x5 := by
  funext i
  obtain ⟨r, d, rfl⟩ : ∃ (r : Fin 16384) (d : Fin 32), i = ix2 r d := ⟨i 0, i 1, eq_ix2 i⟩
  -- the coordinates the reference's sums and broadcasts read
  have e42l : ∀ k : Fin 32, lidx_main_v42 (ix2 r d) k = ix2 r k := fun k =>
    funext fun a => Fin.ext (by match a with | ⟨0, _⟩ => rfl | ⟨1, _⟩ => rfl)
  have e42r : ∀ k : Fin 32, ridx_main_v42 (ix2 r d) k = ix2 k d := fun k =>
    funext fun a => Fin.ext (by match a with | ⟨0, _⟩ => rfl | ⟨1, _⟩ => rfl)
  have e37l : ∀ k : Fin 32, lidx_main_v37 (ix2 r d) k = ix2 r k := fun k =>
    funext fun a => Fin.ext (by match a with | ⟨0, _⟩ => rfl | ⟨1, _⟩ => rfl)
  have e37r : ∀ k : Fin 32, ridx_main_v37 (ix2 r d) k = ix2 k d := fun k =>
    funext fun a => Fin.ext (by match a with | ⟨0, _⟩ => rfl | ⟨1, _⟩ => rfl)
  have e35l : ∀ (k : Fin 32) (n : Fin 16384), lidx_main_v35 (ix2 r k) n = ix2 r n := fun k n =>
    funext fun a => Fin.ext (by match a with | ⟨0, _⟩ => rfl | ⟨1, _⟩ => rfl)
  have e35r : ∀ (k : Fin 32) (n : Fin 16384), ridx_main_v35 (ix2 r k) n = ix2 n k := fun k n =>
    funext fun a => Fin.ext (by match a with | ⟨0, _⟩ => rfl | ⟨1, _⟩ => rfl)
  have e44 : idx_main_v43 (idx_main_v44 (ix2 r d)) = ix1 d :=
    funext fun a => Fin.ext (by match a with | ⟨0, _⟩ => rfl)
  have e39 : idx_main_v38 (idx_main_v39 (ix2 r d)) = ix1 d :=
    funext fun a => Fin.ext (by match a with | ⟨0, _⟩ => rfl)
  rw [layer_apply]
  unfold layerAt message
  rw [val_main_v46_apply, val_main_v45_apply, val_main_v40_apply, val_main_v42_apply, val_main_v44_apply, val_main_v43_apply,
    val_main_v37_apply, val_main_v39_apply, val_main_v38_apply]
  simp only [val_main_v35_apply, e42l, e42r, e37l, e37r, e35l, e35r, e44, e39, Ideal.addf_def]

end Cert.ReferenceIdeal.AsLayer

end
-- ==== Proof.KernelPieces.lean ====
/-
  What one run of the kernel's body leaves behind, case by case, as values of what it was handed.

  The body keeps a running accumulator in a scratch buffer. At the first stride of a row tile it stores zero into the
  accumulator and then updates it; at the other strides it only updates it; at the last stride it also stores the output
  block, computed from the accumulator it has just updated. Read back, the accumulator after the body is therefore

      first stride:   update(zero, adjacency tile, feature tile)
      other strides:  update(accumulator before, adjacency tile, feature tile)

  and the output block of a last stride is

      output(update(accumulator before, adjacency tile, feature tile), Wa, ba, feature rows, Wu, bu).

  Every store covers its whole buffer and every load reads a whole buffer, so each buffer read back is the one value last
  stored into it.
-/
import proofs.«166728_j14061722927248_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First stride: the accumulator is reset to zero and then updated; the update reads back the zero just stored. -/
theorem acc_first (c : Dev nD) (i : grid0.Coords) (a2 : Memref sig .tc .vmem S1024x4096 .bf16) (h2 : a2.IsWhole) (a3 : Memref sig .tc .vmem S4096x32 .bf16) (h3 : a3.IsWhole) (a4 : Memref sig .tc .vmem S1024x32 .f32) (h4 : a4.IsWhole) (a5 : Memref sig .tc .vmem S32x32 .f32) (h5 : a5.IsWhole) (a6 : Memref sig .tc .vmem S1x32 .f32) (h6 : a6.IsWhole) (a7 : Memref sig .tc .vmem S32x32 .f32) (h7 : a7.IsWhole) (a8 : Memref sig .tc .vmem S1x32 .f32) (h8 : a8.IsWhole) (a9 : Memref sig .tc .vmem S1024x32 .f32) (h9 : a9.IsWhole) (a10 : Memref sig .tc .vmem S1024x32 .f32) (h10 : a10.IsWhole) (hc0 : cond0_0 i) (hc1 : ¬cond0_1 i) (x0 : Vec F S1024x4096 .bf16) (x1 : Vec F S4096x32 .bf16) (x2 : Vec F S1024x32 .f32) (x3 : Vec F S32x32 .f32) (x4 : Vec F S1x32 .f32) (x5 : Vec F S32x32 .f32) (x6 : Vec F S1x32 .f32) :
    sout0_A_0 c i a2 h2 a3 h3 a4 h4 a5 h5 a6 h6 a7 h7 a8 h8 a9 h9 a10 h10 hc0 hc1 x0 x1 x2 x3 x4 x5 x6 = k0_pay2 (k0_pay1 (F := F)) x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S1024x32) hz, View.readCov_unit_zero (S := S1024x32) _ hz]
  simp only [View.readAt_eq_ld, h2.read_unread, h3.read_unread, View.ld_unit_zero (S := S1024x32) hz, View.ld_unit_zero (S := S1024x4096) hz, View.ld_unit_zero (S := S4096x32) hz, View.ld_unit_zero (S := S32x32) hz, View.ld_unit_zero (S := S1x32) hz]

/-- A middle stride: the accumulator the point before left, updated. -/
theorem acc_middle (c : Dev nD) (i : grid0.Coords) (a2 : Memref sig .tc .vmem S1024x4096 .bf16) (h2 : a2.IsWhole) (a3 : Memref sig .tc .vmem S4096x32 .bf16) (h3 : a3.IsWhole) (a4 : Memref sig .tc .vmem S1024x32 .f32) (h4 : a4.IsWhole) (a5 : Memref sig .tc .vmem S32x32 .f32) (h5 : a5.IsWhole) (a6 : Memref sig .tc .vmem S1x32 .f32) (h6 : a6.IsWhole) (a7 : Memref sig .tc .vmem S32x32 .f32) (h7 : a7.IsWhole) (a8 : Memref sig .tc .vmem S1x32 .f32) (h8 : a8.IsWhole) (a9 : Memref sig .tc .vmem S1024x32 .f32) (h9 : a9.IsWhole) (a10 : Memref sig .tc .vmem S1024x32 .f32) (h10 : a10.IsWhole) (hc0 : ¬cond0_0 i) (hc1 : ¬cond0_1 i) (x0 : Vec F S1024x4096 .bf16) (x1 : Vec F S4096x32 .bf16) (x2 : Vec F S1024x32 .f32) (x3 : Vec F S32x32 .f32) (x4 : Vec F S1x32 .f32) (x5 : Vec F S32x32 .f32) (x6 : Vec F S1x32 .f32) (xs0 : Vec F S1024x32 .f32) :
    sout0_B_0 c i a2 h2 a3 h3 a4 h4 a5 h5 a6 h6 a7 h7 a8 h8 a9 h9 a10 h10 hc0 hc1 x0 x1 x2 x3 x4 x5 x6 xs0 = k0_pay2 xs0 x0 x1 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs0)]
  unfold kernelRun0_B
  dsimp only
  sl_unfold_words
  rw [View.canon_unit_zero hz]
  simp only [View.readAt_eq_ld, h10.read_unread, h2.read_unread, h3.read_unread, View.ld_unit_zero (S := S1024x32) hz, View.ld_unit_zero (S := S1024x4096) hz, View.ld_unit_zero (S := S4096x32) hz, View.ld_unit_zero (S := S32x32) hz, View.ld_unit_zero (S := S1x32) hz]

/-- The last stride: the accumulator the point before left, updated once more. -/
theorem acc_last (c : Dev nD) (i : grid0.Coords) (a2 : Memref sig .tc .vmem S1024x4096 .bf16) (h2 : a2.IsWhole) (a3 : Memref sig .tc .vmem S4096x32 .bf16) (h3 : a3.IsWhole) (a4 : Memref sig .tc .vmem S1024x32 .f32) (h4 : a4.IsWhole) (a5 : Memref sig .tc .vmem S32x32 .f32) (h5 : a5.IsWhole) (a6 : Memref sig .tc .vmem S1x32 .f32) (h6 : a6.IsWhole) (a7 : Memref sig .tc .vmem S32x32 .f32) (h7 : a7.IsWhole) (a8 : Memref sig .tc .vmem S1x32 .f32) (h8 : a8.IsWhole) (a9 : Memref sig .tc .vmem S1024x32 .f32) (h9 : a9.IsWhole) (a10 : Memref sig .tc .vmem S1024x32 .f32) (h10 : a10.IsWhole) (hc0 : ¬cond0_0 i) (hc1 : cond0_1 i) (x0 : Vec F S1024x4096 .bf16) (x1 : Vec F S4096x32 .bf16) (x2 : Vec F S1024x32 .f32) (x3 : Vec F S32x32 .f32) (x4 : Vec F S1x32 .f32) (x5 : Vec F S32x32 .f32) (x6 : Vec F S1x32 .f32) (xs0 : Vec F S1024x32 .f32) :
    sout0_C_0 c i a2 h2 a3 h3 a4 h4 a5 h5 a6 h6 a7 h7 a8 h8 a9 h9 a10 h10 hc0 hc1 x0 x1 x2 x3 x4 x5 x6 xs0 = k0_pay2 xs0 x0 x1 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz]
  simp only [View.readAt_eq_ld, h10.read_unread, h2.read_unread, h3.read_unread, View.ld_unit_zero (S := S1024x32) hz, View.ld_unit_zero (S := S1024x4096) hz, View.ld_unit_zero (S := S4096x32) hz, View.ld_unit_zero (S := S32x32) hz, View.ld_unit_zero (S := S1x32) hz]

/-- The last stride's output block: the output function of the accumulator just updated and the blocks handed in. -/
theorem out_last (c : Dev nD) (i : grid0.Coords) (a2 : Memref sig .tc .vmem S1024x4096 .bf16) (h2 : a2.IsWhole) (a3 : Memref sig .tc .vmem S4096x32 .bf16) (h3 : a3.IsWhole) (a4 : Memref sig .tc .vmem S1024x32 .f32) (h4 : a4.IsWhole) (a5 : Memref sig .tc .vmem S32x32 .f32) (h5 : a5.IsWhole) (a6 : Memref sig .tc .vmem S1x32 .f32) (h6 : a6.IsWhole) (a7 : Memref sig .tc .vmem S32x32 .f32) (h7 : a7.IsWhole) (a8 : Memref sig .tc .vmem S1x32 .f32) (h8 : a8.IsWhole) (a9 : Memref sig .tc .vmem S1024x32 .f32) (h9 : a9.IsWhole) (a10 : Memref sig .tc .vmem S1024x32 .f32) (h10 : a10.IsWhole) (hc0 : ¬cond0_0 i) (hc1 : cond0_1 i) (x0 : Vec F S1024x4096 .bf16) (x1 : Vec F S4096x32 .bf16) (x2 : Vec F S1024x32 .f32) (x3 : Vec F S32x32 .f32) (x4 : Vec F S1x32 .f32) (x5 : Vec F S32x32 .f32) (x6 : Vec F S1x32 .f32) (xs0 : Vec F S1024x32 .f32) :
    out0_C_7 c i a2 h2 a3 h3 a4 h4 a5 h5 a6 h6 a7 h7 a8 h8 a9 h9 a10 h10 hc0 hc1 x0 x1 x2 x3 x4 x5 x6 xs0 = k0_pay3 (k0_pay2 xs0 x0 x1) x3 x4 x2 x5 x6 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz]
  simp only [View.readCov_unit_zero (S := S1024x32) _ hz, View.readAt_eq_ld, h10.read_unread, h2.read_unread, h3.read_unread,
    h4.read_unread, h5.read_unread, h6.read_unread, h7.read_unread, h8.read_unread, View.ld_unit_zero (S := S1024x32) hz, View.ld_unit_zero (S := S1024x4096) hz, View.ld_unit_zero (S := S4096x32) hz, View.ld_unit_zero (S := S32x32) hz, View.ld_unit_zero (S := S1x32) hz]

end Cert.KernelIdeal.Pieces

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.KernelBody.lean ====
/-
  The three values the kernel's body stores, each read at one entry, at the ideal values (every float an extended real, every
  operation exact).

  * The reset value of the accumulator: zero at every entry.
  * The accumulator's update: the old accumulator plus the product of the adjacency tile with the feature tile — entry (p, j)
    gains Σ_n tile(p, n) · feat(n, j) over the tile's 4096 columns.
  * The output of the last stride: the node's own features against the update weights plus the update bias, plus the finished
    messages against the aggregation weights plus the aggregation bias.
-/
import proofs.«166728_j14061722927248_1_alg».proof.Proof.Gen.KernelIdeal.Skeleton
import proofs.«166728_j14061722927248_1_alg».proof.Proof.LibPlainMatmul
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.Body

open Cert.KernelIdeal Cert.KernelIdeal.Gen

/-- The reset value is zero at every entry. -/
theorem reset_apply (p : Fin 1024) (j : Fin 32) : k0_pay1 (F := Ideal) (ix2 p j) = 0 := by
  unfold k0_pay1
  simp only [shapeCast_self, broadcast_apply]
  exact Ideal.ofBits_zero_f32

/-- The update at entry (p, j): the old accumulator's entry plus row p of the adjacency tile against column j of the feature tile. -/
theorem update_apply (acc : Vec Ideal S1024x32 .f32) (tile : Vec Ideal S1024x4096 .bf16) (feat : Vec Ideal S4096x32 .bf16)
    (p : Fin 1024) (j : Fin 32) :
    k0_pay2 (F := Ideal) acc tile feat (ix2 p j) = acc (ix2 p j) + ∑ n : Fin 4096, tile (ix2 p n) * feat (ix2 n j) := by
  unfold k0_pay2
  simp only [shapeCast_self]
  rw [addf_apply]
  exact congrArg (acc (ix2 p j) + ·)
    (Cert.Lib.PlainMatmul.apply dot_S1024x4096_S4096x32_S1024x32_1_0_0_1_n_n rfl rfl rfl rfl rfl rfl none tile feat p j)

/-- The output at entry (p, d). -/
theorem output_apply (msg : Vec Ideal S1024x32 .f32) (wa : Vec Ideal S32x32 .f32) (ba : Vec Ideal S1x32 .f32)
    (rows : Vec Ideal S1024x32 .f32) (wu : Vec Ideal S32x32 .f32) (bu : Vec Ideal S1x32 .f32) (p : Fin 1024) (d : Fin 32) :
    k0_pay3 (F := Ideal) msg wa ba rows wu bu (ix2 p d)
      = ((∑ j : Fin 32, rows (ix2 p j) * wu (ix2 j d)) + bu (ix2 (0 : Fin 1) d))
        + ((∑ j : Fin 32, msg (ix2 p j) * wa (ix2 j d)) + ba (ix2 (0 : Fin 1) d)) := by
  unfold k0_pay3
  simp only [shapeCast_self]
  rw [addf_apply, addf_apply, addf_apply]
  have own := Cert.Lib.PlainMatmul.apply dot_S1024x32_S32x32_S1024x32_1_0_0_1_n_n rfl rfl rfl rfl rfl rfl none (φ₁ := .f32) (φ₂ := .f32) rows wu p d
  have agg := Cert.Lib.PlainMatmul.apply dot_S1024x32_S32x32_S1024x32_1_0_0_1_n_n rfl rfl rfl rfl rfl rfl none (φ₁ := .f32) (φ₂ := .f32) msg wa p d
  have bup := Cert.Lib.PlainMatmul.rowSpread_apply bu broadcasts_S1x32_S1024x32 p d
  have bag := Cert.Lib.PlainMatmul.rowSpread_apply ba broadcasts_S1x32_S1024x32 p d
  exact congrArg₂ (· + ·) (congrArg₂ (· + ·) own bup) (congrArg₂ (· + ·) agg bag)

end Cert.KernelIdeal.Body

end
-- ==== Proof.KernelIndexMaps.lean ====
/-
  The printed index maps of the call's eight windows over its 16 × 4 grid, in closed form.

  Point t (counted row tile first, stride second) is row tile t / 4 at stride t % 4: the adjacency window's block index is
  (t / 4, t % 4), the low-precision feature window's is (t % 4, 0), the feature rows' and the output's is (t / 4, 0), and the two
  weight matrices and two bias rows sit at block (0, 0) throughout. Each is decided once over the 64 points.
-/
import proofs.«166728_j14061722927248_1_alg».proof.Proof.Gen.KernelIdeal.Launch

noncomputable section

open Idealize.ShloMosaic

namespace Cert.KernelIdeal.IndexMaps

open Cert.KernelIdeal Cert.KernelIdeal.Gen

theorem adj : ∀ t : Fin cfg0.N, win0_0.index t (0 : Fin 2) = t.val / 4 ∧ win0_0.index t (1 : Fin 2) = t.val % 4 :=
  (by decide +kernel : ∀ t : Fin grid0.N, _)

theorem featLo : ∀ t : Fin cfg0.N, win0_1.index t (0 : Fin 2) = t.val % 4 ∧ win0_1.index t (1 : Fin 2) = 0 :=
  (by decide +kernel : ∀ t : Fin grid0.N, _)

theorem featRows : ∀ t : Fin cfg0.N, win0_2.index t (0 : Fin 2) = t.val / 4 ∧ win0_2.index t (1 : Fin 2) = 0 :=
  (by decide +kernel : ∀ t : Fin grid0.N, _)

theorem wa : ∀ t : Fin cfg0.N, win0_3.index t (0 : Fin 2) = 0 ∧ win0_3.index t (1 : Fin 2) = 0 :=
  (by decide +kernel : ∀ t : Fin grid0.N, _)

theorem ba : ∀ t : Fin cfg0.N, win0_4.index t (0 : Fin 2) = 0 ∧ win0_4.index t (1 : Fin 2) = 0 :=
  (by decide +kernel : ∀ t : Fin grid0.N, _)

theorem wu : ∀ t : Fin cfg0.N, win0_5.index t (0 : Fin 2) = 0 ∧ win0_5.index t (1 : Fin 2) = 0 :=
  (by decide +kernel : ∀ t : Fin grid0.N, _)

theorem bu : ∀ t : Fin cfg0.N, win0_6.index t (0 : Fin 2) = 0 ∧ win0_6.index t (1 : Fin 2) = 0 :=
  (by decide +kernel : ∀ t : Fin grid0.N, _)

theorem out : ∀ t : Fin cfg0.N, win0_7.index t (0 : Fin 2) = t.val / 4 ∧ win0_7.index t (1 : Fin 2) = 0 :=
  (by decide +kernel : ∀ t : Fin grid0.N, _)

end Cert.KernelIdeal.IndexMaps

end
-- ==== Proof.KernelBlocks.lean ====
/-
  What each window's block holds, one entry at a time, in terms of the whole array behind the window.

  The grid has 16 × 4 points; point t is row tile t / 4 of the adjacency and of the features, at stride t % 4 of the
  reduction. A block's entry sits in the array at (block index) × (block size) + (position inside the block) on each axis, so
  at point t
    * the adjacency tile's entry (p, q) is the adjacency's entry (1024·(t/4) + p, 4096·(t%4) + q);
    * the low-precision feature tile's entry (p, q) is that array's entry (4096·(t%4) + p, q);
    * the feature rows' and the output block's entry (p, q) is the array's entry (1024·(t/4) + p, q);
    * the two weight matrices and the two bias rows are whole at every point.
  Each read is stated first for any contents of the array, and then for the array the call is handed.
-/
import proofs.«166728_j14061722927248_1_alg».proof.Proof.Gen.KernelIdeal.Frame
import proofs.«166728_j14061722927248_1_alg».proof.Proof.KernelIndexMaps
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

theorem point_lt (t : Fin cfg0.N) : t.val < 64 := lt_of_lt_of_eq t.isLt (show cfg0.N = 64 from N_0)

/-! ## Where a block's entry sits in its array -/

theorem emb_adj (t : Fin cfg0.N) (p : Fin 1024) (q : Fin 4096) :
    ((cfg0.win 0).blk t).view.emb (ix2 p q)
      = ix2 ⟨1024 * (t.val / 4) + p.val, by have := point_lt t; have := p.isLt; omega⟩ ⟨4096 * (t.val % 4) + q.val, by have := q.isLt; omega⟩ := by
  obtain ⟨e0, e1⟩ := IndexMaps.adj t
  funext a; apply Fin.ext
  match a with
  | ⟨0, _⟩ => show win0_0.index t (0 : Fin 2) * 1024 + 1 * p.val = 1024 * (t.val / 4) + p.val; rw [e0]; omega
  | ⟨1, _⟩ => show win0_0.index t (1 : Fin 2) * 4096 + 1 * q.val = 4096 * (t.val % 4) + q.val; rw [e1]; omega

theorem emb_featLo (t : Fin cfg0.N) (p : Fin 4096) (q : Fin 32) :
    ((cfg0.win 1).blk t).view.emb (ix2 p q)
      = ix2 ⟨4096 * (t.val % 4) + p.val, by have := point_lt t; have := p.isLt; omega⟩ ⟨q.val, by have := q.isLt; omega⟩ := by
  obtain ⟨e0, e1⟩ := IndexMaps.featLo t
  funext a; apply Fin.ext
  match a with
  | ⟨0, _⟩ => show win0_1.index t (0 : Fin 2) * 4096 + 1 * p.val = 4096 * (t.val % 4) + p.val; rw [e0]; omega
  | ⟨1, _⟩ => show win0_1.index t (1 : Fin 2) * 32 + 1 * q.val = q.val; rw [e1]; omega

theorem emb_featRows (t : Fin cfg0.N) (p : Fin 1024) (q : Fin 32) :
    ((cfg0.win 2).blk t).view.emb (ix2 p q)
      = ix2 ⟨1024 * (t.val / 4) + p.val, by have := point_lt t; have := p.isLt; omega⟩ ⟨q.val, by have := q.isLt; omega⟩ := by
  obtain ⟨e0, e1⟩ := IndexMaps.featRows t
  funext a; apply Fin.ext
  match a with
  | ⟨0, _⟩ => show win0_2.index t (0 : Fin 2) * 1024 + 1 * p.val = 1024 * (t.val / 4) + p.val; rw [e0]; omega
  | ⟨1, _⟩ => show win0_2.index t (1 : Fin 2) * 32 + 1 * q.val = q.val; rw [e1]; omega

theorem emb_wa (t : Fin cfg0.N) (p : Fin 32) (q : Fin 32) :
    ((cfg0.win 3).blk t).view.emb (ix2 p q)
      = ix2 ⟨p.val, by have := point_lt t; have := p.isLt; omega⟩ ⟨q.val, by have := q.isLt; omega⟩ := by
  obtain ⟨e0, e1⟩ := IndexMaps.wa t
  funext a; apply Fin.ext
  match a with
  | ⟨0, _⟩ => show win0_3.index t (0 : Fin 2) * 32 + 1 * p.val = p.val; rw [e0]; omega
  | ⟨1, _⟩ => show win0_3.index t (1 : Fin 2) * 32 + 1 * q.val = q.val; rw [e1]; omega

theorem emb_ba (t : Fin cfg0.N) (p : Fin 1) (q : Fin 32) :
    ((cfg0.win 4).blk t).view.emb (ix2 p q)
      = ix2 ⟨p.val, by have := point_lt t; have := p.isLt; omega⟩ ⟨q.val, by have := q.isLt; omega⟩ := by
  obtain ⟨e0, e1⟩ := IndexMaps.ba t
  funext a; apply Fin.ext
  match a with
  | ⟨0, _⟩ => show win0_4.index t (0 : Fin 2) * 1 + 1 * p.val = p.val; rw [e0]; omega
  | ⟨1, _⟩ => show win0_4.index t (1 : Fin 2) * 32 + 1 * q.val = q.val; rw [e1]; omega

theorem emb_wu (t : Fin cfg0.N) (p : Fin 32) (q : Fin 32) :
    ((cfg0.win 5).blk t).view.emb (ix2 p q)
      = ix2 ⟨p.val, by have := point_lt t; have := p.isLt; omega⟩ ⟨q.val, by have := q.isLt; omega⟩ := by
  obtain ⟨e0, e1⟩ := IndexMaps.wu t
  funext a; apply Fin.ext
  match a with
  | ⟨0, _⟩ => show win0_5.index t (0 : Fin 2) * 32 + 1 * p.val = p.val; rw [e0]; omega
  | ⟨1, _⟩ => show win0_5.index t (1 : Fin 2) * 32 + 1 * q.val = q.val; rw [e1]; omega

theorem emb_bu (t : Fin cfg0.N) (p : Fin 1) (q : Fin 32) :
    ((cfg0.win 6).blk t).view.emb (ix2 p q)
      = ix2 ⟨p.val, by have := point_lt t; have := p.isLt; omega⟩ ⟨q.val, by have := q.isLt; omega⟩ := by
  obtain ⟨e0, e1⟩ := IndexMaps.bu t
  funext a; apply Fin.ext
  match a with
  | ⟨0, _⟩ => show win0_6.index t (0 : Fin 2) * 1 + 1 * p.val = p.val; rw [e0]; omega
  | ⟨1, _⟩ => show win0_6.index t (1 : Fin 2) * 32 + 1 * q.val = q.val; rw [e1]; omega

theorem emb_out (t : Fin cfg0.N) (p : Fin 1024) (q : Fin 32) :
    ((cfg0.win 7).blk t).view.emb (ix2 p q)
      = ix2 ⟨1024 * (t.val / 4) + p.val, by have := point_lt t; have := p.isLt; omega⟩ ⟨q.val, by have := q.isLt; omega⟩ := by
  obtain ⟨e0, e1⟩ := IndexMaps.out t
  funext a; apply Fin.ext
  match a with
  | ⟨0, _⟩ => show win0_7.index t (0 : Fin 2) * 1024 + 1 * p.val = 1024 * (t.val / 4) + p.val; rw [e0]; omega
  | ⟨1, _⟩ => show win0_7.index t (1 : Fin 2) * 32 + 1 * q.val = q.val; rw [e1]; omega

variable {F : FTy → Type} [FloatOps F]

/-! ## A block read off any contents of its array -/

theorem read_adj (c : Dev nD) (A : Buf (Elt F) ((c : Thread nD τ).loc main_v34)) (t : Fin cfg0.N) (p : Fin 1024) (q : Fin 4096) :
    ((cfg0.win 0).blk t).view.read (Elt F) A (ix2 p q)
      = A (ix2 ⟨1024 * (t.val / 4) + p.val, by have := point_lt t; have := p.isLt; omega⟩ ⟨4096 * (t.val % 4) + q.val, by have := q.isLt; omega⟩) := by
  rw [View.read_apply, emb_adj t p q]
  rfl

theorem read_featLo (c : Dev nD) (A : Buf (Elt F) ((c : Thread nD τ).loc main_v35)) (t : Fin cfg0.N) (p : Fin 4096) (q : Fin 32) :
    ((cfg0.win 1).blk t).view.read (Elt F) A (ix2 p q)
      = A (ix2 ⟨4096 * (t.val % 4) + p.val, by have := point_lt t; have := p.isLt; omega⟩ ⟨q.val, by have := q.isLt; omega⟩) := by
  rw [View.read_apply, emb_featLo t p q]
  rfl

theorem read_featRows (c : Dev nD) (A : Buf (Elt F) ((c : Thread nD τ).loc main_arg0)) (t : Fin cfg0.N) (p : Fin 1024) (q : Fin 32) :
    ((cfg0.win 2).blk t).view.read (Elt F) A (ix2 p q)
      = A (ix2 ⟨1024 * (t.val / 4) + p.val, by have := point_lt t; have := p.isLt; omega⟩ ⟨q.val, by have := q.isLt; omega⟩) := by
  rw [View.read_apply, emb_featRows t p q]
  rfl

theorem read_wa (c : Dev nD) (A : Buf (Elt F) ((c : Thread nD τ).loc main_v36)) (t : Fin cfg0.N) (p : Fin 32) (q : Fin 32) :
    ((cfg0.win 3).blk t).view.read (Elt F) A (ix2 p q)
      = A (ix2 ⟨p.val, by have := point_lt t; have := p.isLt; omega⟩ ⟨q.val, by have := q.isLt; omega⟩) := by
  rw [View.read_apply, emb_wa t p q]
  rfl

theorem read_ba (c : Dev nD) (A : Buf (Elt F) ((c : Thread nD τ).loc main_v38)) (t : Fin cfg0.N) (p : Fin 1) (q : Fin 32) :
    ((cfg0.win 4).blk t).view.read (Elt F) A (ix2 p q)
      = A (ix2 ⟨p.val, by have := point_lt t; have := p.isLt; omega⟩ ⟨q.val, by have := q.isLt; omega⟩) := by
  rw [View.read_apply, emb_ba t p q]
  rfl

theorem read_wu (c : Dev nD) (A : Buf (Elt F) ((c : Thread nD τ).loc main_v37)) (t : Fin cfg0.N) (p : Fin 32) (q : Fin 32) :
    ((cfg0.win 5).blk t).view.read (Elt F) A (ix2 p q)
      = A (ix2 ⟨p.val, by have := point_lt t; have := p.isLt; omega⟩ ⟨q.val, by have := q.isLt; omega⟩) := by
  rw [View.read_apply, emb_wu t p q]
  rfl

theorem read_bu (c : Dev nD) (A : Buf (Elt F) ((c : Thread nD τ).loc main_v39)) (t : Fin cfg0.N) (p : Fin 1) (q : Fin 32) :
    ((cfg0.win 6).blk t).view.read (Elt F) A (ix2 p q)
      = A (ix2 ⟨p.val, by have := point_lt t; have := p.isLt; omega⟩ ⟨q.val, by have := q.isLt; omega⟩) := by
  rw [View.read_apply, emb_bu t p q]
  rfl

theorem read_out (c : Dev nD) (A : Buf (Elt F) ((c : Thread nD τ).loc main_v40)) (t : Fin cfg0.N) (p : Fin 1024) (q : Fin 32) :
    ((cfg0.win 7).blk t).view.read (Elt F) A (ix2 p q)
      = A (ix2 ⟨1024 * (t.val / 4) + p.val, by have := point_lt t; have := p.isLt; omega⟩ ⟨q.val, by have := q.isLt; omega⟩) := by
  rw [View.read_apply, emb_out t p q]
  rfl

/-! ## The arrays the call is handed, and its blocks at a point -/

variable (m : (ℓ : Loc nD τ sig) → Buf (Elt F) ℓ)

abbrev adjArr (c : Dev nD) : Vec F S16384x16384 .bf16 := V m c main_v34
abbrev featLoArr (c : Dev nD) : Vec F S16384x32 .bf16 := V m c main_v35
abbrev featArr (c : Dev nD) : Vec F S16384x32 .f32 := V m c main_arg0
abbrev waArr (c : Dev nD) : Vec F S32x32 .f32 := V m c main_v36
abbrev baArr (c : Dev nD) : Vec F S1x32 .f32 := V m c main_v38
abbrev wuArr (c : Dev nD) : Vec F S32x32 .f32 := V m c main_v37
abbrev buArr (c : Dev nD) : Vec F S1x32 .f32 := V m c main_v39

abbrev adjTile (c : Dev nD) (t : Fin cfg0.N) : Vec F S1024x4096 .bf16 := iblk m c 0 t
abbrev featLoTile (c : Dev nD) (t : Fin cfg0.N) : Vec F S4096x32 .bf16 := iblk m c 1 t
abbrev featRows (c : Dev nD) (t : Fin cfg0.N) : Vec F S1024x32 .f32 := iblk m c 2 t
abbrev waBlk (c : Dev nD) (t : Fin cfg0.N) : Vec F S32x32 .f32 := iblk m c 3 t
abbrev baBlk (c : Dev nD) (t : Fin cfg0.N) : Vec F S1x32 .f32 := iblk m c 4 t
abbrev wuBlk (c : Dev nD) (t : Fin cfg0.N) : Vec F S32x32 .f32 := iblk m c 5 t
abbrev buBlk (c : Dev nD) (t : Fin cfg0.N) : Vec F S1x32 .f32 := iblk m c 6 t

theorem adjTile_apply (c : Dev nD) (t : Fin cfg0.N) (p : Fin 1024) (q : Fin 4096) :
    adjTile m c t (ix2 p q)
      = adjArr m c (ix2 ⟨1024 * (t.val / 4) + p.val, by have := point_lt t; have := p.isLt; omega⟩
          ⟨4096 * (t.val % 4) + q.val, by have := q.isLt; omega⟩) :=
  read_adj c (V m c main_v34) t p q

theorem featLoTile_apply (c : Dev nD) (t : Fin cfg0.N) (p : Fin 4096) (q : Fin 32) :
    featLoTile m c t (ix2 p q)
      = featLoArr m c (ix2 ⟨4096 * (t.val % 4) + p.val, by have := p.isLt; omega⟩ ⟨q.val, by have := q.isLt; omega⟩) :=
  read_featLo c (V m c main_v35) t p q

theorem featRows_apply (c : Dev nD) (t : Fin cfg0.N) (p : Fin 1024) (q : Fin 32) :
    featRows m c t (ix2 p q)
      = featArr m c (ix2 ⟨1024 * (t.val / 4) + p.val, by have := point_lt t; have := p.isLt; omega⟩ ⟨q.val, by have := q.isLt; omega⟩) :=
  read_featRows c (V m c main_arg0) t p q

theorem waBlk_apply (c : Dev nD) (t : Fin cfg0.N) (p q : Fin 32) : waBlk m c t (ix2 p q) = waArr m c (ix2 p q) :=
  read_wa c (V m c main_v36) t p q

theorem baBlk_apply (c : Dev nD) (t : Fin cfg0.N) (p : Fin 1) (q : Fin 32) : baBlk m c t (ix2 p q) = baArr m c (ix2 p q) :=
  read_ba c (V m c main_v38) t p q

theorem wuBlk_apply (c : Dev nD) (t : Fin cfg0.N) (p q : Fin 32) : wuBlk m c t (ix2 p q) = wuArr m c (ix2 p q) :=
  read_wu c (V m c main_v37) t p q

theorem buBlk_apply (c : Dev nD) (t : Fin cfg0.N) (p : Fin 1) (q : Fin 32) : buBlk m c t (ix2 p q) = buArr m c (ix2 p q) :=
  read_bu c (V m c main_v39) t p q

end Cert.KernelIdeal.Blocks

end
-- ==== Proof.KernelAccum.lean ====
/-
  The accumulator after every grid point, at the ideal values.

  Point t works on row tile t / 4 at stride t % 4. After it, entry (p, j) of the accumulator is the message of node
  1024·(t/4) + p in channel j restricted to the first 4096·(t%4 + 1) columns of the adjacency:

    * at a first stride the accumulator is zero — the empty partial sum — plus the first 4096 columns;
    * at every other stride it is what the point before left — by induction the partial sum over 4096·(t%4) columns of
      the same row tile — plus the next 4096 columns.

  The induction runs over the points in order and never enumerates them.
-/
import proofs.«166728_j14061722927248_1_alg».proof.Proof.KernelPieces
import proofs.«166728_j14061722927248_1_alg».proof.Proof.KernelBody
import proofs.«166728_j14061722927248_1_alg».proof.Proof.KernelBlocks
import proofs.«166728_j14061722927248_1_alg».proof.Proof.Layer

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.GraphLayer

variable (m : (ℓ : Loc nD τ sig) → Buf (Elt Ideal) ℓ)

/-- The node that row p of the row tile of point n is. -/
abbrev nodeAt (n : ℕ) (hn : n < 64) (p : Fin 1024) : Fin 16384 := ⟨1024 * (n / 4) + p.val, by have := p.isLt; omega⟩

/-- One update at point t: if the accumulator's entry is the partial message over 4096·(t%4) columns, the updated entry is the
    partial message over 4096·(t%4 + 1) columns. -/
theorem update_at (c : Dev nD) (t : Fin cfg0.N) (acc : Vec Ideal S1024x32 .f32) (p : Fin 1024) (j : Fin 32)
    (hacc : acc (ix2 p j) = partialMessage (adjArr m c) (featLoArr m c) (nodeAt t.val (point_lt t) p) j (t.val % 4)) :
    k0_pay2 (F := Ideal) acc (adjTile m c t) (featLoTile m c t) (ix2 p j)
      = partialMessage (adjArr m c) (featLoArr m c) (nodeAt t.val (point_lt t) p) j (t.val % 4 + 1) := by
  rw [Body.update_apply, partialMessage_succ _ _ _ _ _ (Nat.mod_lt _ (by norm_num)), hacc]
  exact congrArg (_ + ·) (Finset.sum_congr rfl fun n _ =>
    congrArg₂ (· * ·) (adjTile_apply m c t p n) (featLoTile_apply m c t n j))

/-- THE INVARIANT: the accumulator after point n. -/
theorem acc_eq (c : Dev nD) : ∀ (n : ℕ) (h : n < cfg0.N) (p : Fin 1024) (j : Fin 32),
    (outsAt0 m c n h).2 (ix2 p j)
      = partialMessage (adjArr m c) (featLoArr m c) (nodeAt n (lt_of_lt_of_eq h N_0) p) j (n % 4 + 1)
  | 0, h, p, j => by
    have h0 : (⟨0, h⟩ : Fin cfg0.N).val % 4 = 0 := rfl
    have h1 : ¬(⟨0, h⟩ : Fin cfg0.N).val % 4 = 3 := by show ¬(0 : ℕ) % 4 = 3; decide
    rw [outsAt0_A m c (⟨0, h⟩ : Fin cfg0.N) h0 h1]
    dsimp only
    refine (congrFun (Pieces.acc_first (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) ((hcond0_0 (⟨0, h⟩ : Fin cfg0.N)).mpr h0) (fun h' => h1 ((hcond0_1 (⟨0, h⟩ : Fin cfg0.N)).mp h')) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N))) (ix2 p j)).trans ?_
    exact update_at m c (⟨0, h⟩ : Fin cfg0.N) (k0_pay1 (F := Ideal)) p j ((Body.reset_apply p j).trans (partialMessage_zero _ _ _ _).symm)
  | n + 1, h, p, j => by
    have hN : n + 1 < 64 := lt_of_lt_of_eq h N_0
    by_cases h0 : (⟨n + 1, h⟩ : Fin cfg0.N).val % 4 = 0
    · have h1 : ¬(⟨n + 1, h⟩ : Fin cfg0.N).val % 4 = 3 := by dsimp only at h0 ⊢; omega
      rw [outsAt0_A m c (⟨n + 1, h⟩ : Fin cfg0.N) h0 h1]
      dsimp only
      refine (congrFun (Pieces.acc_first (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) ((hcond0_0 (⟨n + 1, h⟩ : Fin cfg0.N)).mpr h0) (fun h' => h1 ((hcond0_1 (⟨n + 1, h⟩ : Fin cfg0.N)).mp h')) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N))) (ix2 p j)).trans ?_
      have hk : (n + 1) % 4 = 0 := h0
      refine (update_at m c (⟨n + 1, h⟩ : Fin cfg0.N) (k0_pay1 (F := Ideal)) p j ((Body.reset_apply p j).trans ?_))
      show (0 : EReal) = partialMessage _ _ _ j ((n + 1) % 4)
      rw [hk]; exact (partialMessage_zero _ _ _ _).symm
    · have ih := acc_eq c n (Nat.lt_of_succ_lt h) p j
      have hk : n % 4 + 1 = (n + 1) % 4 := by dsimp only at h0; omega
      have hnode : nodeAt n (by omega) p = nodeAt (n + 1) hN p :=
        Fin.ext (by show 1024 * (n / 4) + p.val = 1024 * ((n + 1) / 4) + p.val; dsimp only at h0; omega)
      have hprev : (outsAt0 m c n (Nat.lt_of_succ_lt h)).2 (ix2 p j)
          = partialMessage (adjArr m c) (featLoArr m c) (nodeAt (n + 1) hN p) j ((n + 1) % 4) := by
        rw [ih, hnode, hk]
      by_cases h1 : (⟨n + 1, h⟩ : Fin cfg0.N).val % 4 = 3
      · rw [outsAt0_C m c (⟨n + 1, h⟩ : Fin cfg0.N) h0 h1]
        dsimp only
        refine (congrFun (Pieces.acc_last (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) (fun h' => h0 ((hcond0_0 (⟨n + 1, h⟩ : Fin cfg0.N)).mp h')) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c n (Nat.lt_of_succ_lt h)).2) (ix2 p j)).trans ?_
        exact update_at m c (⟨n + 1, h⟩ : Fin cfg0.N) (outsAt0 m c n (Nat.lt_of_succ_lt h)).2 p j hprev
      · rw [outsAt0_B m c (⟨n + 1, h⟩ : Fin cfg0.N) h0 h1]
        dsimp only
        refine (congrFun (Pieces.acc_middle (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) (fun h' => h0 ((hcond0_0 (⟨n + 1, h⟩ : Fin cfg0.N)).mp h')) (fun h' => h1 ((hcond0_1 (⟨n + 1, h⟩ : Fin cfg0.N)).mp h')) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c n (Nat.lt_of_succ_lt h)).2) (ix2 p j)).trans ?_
        exact update_at m c (⟨n + 1, h⟩ : Fin cfg0.N) (outsAt0 m c n (Nat.lt_of_succ_lt h)).2 p j hprev

end Cert.KernelIdeal.Accum

end
-- ==== Proof.KernelHost.lean ====
/-
  What the host part of the kernel's program hands the call, as functions of the program's arguments.

  Before the call the program builds, from the edge list, the dense adjacency: into the zero matrix it scatters the value one at
  every (source, destination) pair and then at every (destination, source) pair, negative indices first wrapped by the number of
  nodes. It converts the features to the low-precision format, transposes the two weight matrices and reshapes the two biases to
  one row each.

  The adjacency is kept as the two scatters applied to the two index arrays; nothing here looks inside a scatter. The index
  arrays are integer arithmetic on the edge list and are the very terms the reference program computes for its own scatters.
  At the ideal values the low-precision zero and one are the numbers 0 and 1, as the reference's are, so the two programs scatter
  the same values at the same indices into the same matrix; and a change of float format is the identity, so the
  low-precision features are the features.
-/
import proofs.«166728_j14061722927248_1_alg».proof.Proof.Gen.KernelIdeal.Frame
import proofs.«166728_j14061722927248_1_alg».proof.Proof.Gen.ReferenceIdeal.Read
import Idealize.ShloMosaic.Lib.StableHlo.Run
import Idealize.ShloMosaic.Lib.IdealHost
import Idealize.ShloMosaic.Lib.Pipeline.Value
import Idealize.ShloMosaic.Lib.ValueIdx

noncomputable section

open Idealize.ShloMosaic Idealize.ShloMosaic.TcCoe Idealize.SL.Sem Idealize.ShloMosaic.ValueIdx Idealize.ShloMosaic.StableHlo

namespace Cert.KernelIdeal.HostSide

open Cert.KernelIdeal Cert.KernelIdeal.Gen

section AnyValues

variable {F : FTy → Type} [FloatOps F]
variable (m : (ℓ : Loc nD τ sig) → Buf (Elt F) ℓ)

/-- The adjacency the host part builds from the edge list `e`: zero, then one scattered at the (source, destination) pairs,
    then one scattered at the (destination, source) pairs. The two index arrays are the reference program's own. -/
def hostAdj (e : (⟨S2x524288, .i32⟩ : BufTy).Contents (Elt F)) : (⟨S16384x16384, .bf16⟩ : BufTy).Contents (Elt F) :=
  Host.scatter scatter_S16384x16384_S524288x2_S524288_n_01_01_1 (fun _ b => b)
    (Host.scatter scatter_S16384x16384_S524288x2_S524288_n_01_01_1 (fun _ b => b)
      (broadcastInDim S16384x16384 ![] bcast_S_S16384x16384 (constant S_ .bf16 0x0000#16))
      (Cert.ReferenceIdeal.Read.val_main_v17 (F := F) e)
      (broadcastInDim S524288 ![] bcast_S_S524288 (constant S_ .bf16 0x3F80#16)))
    (Cert.ReferenceIdeal.Read.val_main_v32 (F := F) e)
    (broadcastInDim S524288 ![] bcast_S_S524288 (constant S_ .bf16 0x3F80#16))

set_option maxRecDepth 8192 in
set_option maxHeartbeats 2000000 in
/-- The call's first operand is that adjacency of the edge-list argument. -/
theorem adj_eq (c : Dev nD) : V m c main_v34 = hostAdj (F := F) (m ((c : Thread nD τ).loc main_arg1)) := by
  dsimp only [V, hostOps0]
  after_results_simp <;> rfl

/-- The call's second operand is the features converted to the low-precision format. -/
theorem featLo_eq (c : Dev nD) :
    (V m c main_v35 : Vec F S16384x32 .bf16) = truncf .bf16 (m ((c : Thread nD τ).loc main_arg0)) bitsLt_bf16_f32 := by
  dsimp only [V, hostOps0]
  after_results

/-- The aggregation weights as multiplied: the argument transposed. -/
theorem wa_eq (c : Dev nD) :
    (V m c main_v36 : Vec F S32x32 .f32) = transpose S32x32 [1, 0] (m ((c : Thread nD τ).loc main_arg2)) transposes_S32x32_S32x32_1_0 := by
  dsimp only [V, hostOps0]
  after_results

/-- The update weights as multiplied: the argument transposed. -/
theorem wu_eq (c : Dev nD) :
    (V m c main_v37 : Vec F S32x32 .f32) = transpose S32x32 [1, 0] (m ((c : Thread nD τ).loc main_arg4)) transposes_S32x32_S32x32_1_0 := by
  dsimp only [V, hostOps0]
  after_results

/-- The aggregation bias as one row. -/
theorem ba_eq (c : Dev nD) :
    (V m c main_v38 : Vec F S1x32 .f32) = shapeCast S1x32 (m ((c : Thread nD τ).loc main_arg3)) shapeCasts_S32_S1x32 := by
  dsimp only [V, hostOps0]
  after_results
  rfl

/-- The update bias as one row. -/
theorem bu_eq (c : Dev nD) :
    (V m c main_v39 : Vec F S1x32 .f32) = shapeCast S1x32 (m ((c : Thread nD τ).loc main_arg5)) shapeCasts_S32_S1x32 := by
  dsimp only [V, hostOps0]
  after_results
  rfl

/-- A bias reshaped to one row, at entry (0, d): the bias's entry d. -/
theorem biasRow_apply {α : Type} (b : S32.Idx → α) (d : Fin 32) :
    shapeCast S1x32 b shapeCasts_S32_S1x32 (ix2 (0 : Fin 1) d) = b (ix1 d) :=
  shapeCast_apply b shapeCasts_S32_S1x32 (ix2 (0 : Fin 1) d) (ix1 d)
    (by rewrite [Shape.rowMajor_val_two, Shape.rowMajor_val_one]; show d.val = 0 * 32 + d.val; omega)

end AnyValues

/-! ## At the ideal values -/

/-- The kernel's adjacency is the reference's: the same two scatters of the same ones at the same indices into the same zeros. -/
theorem hostAdj_eq_reference (e : (⟨S2x524288, .i32⟩ : BufTy).Contents (Elt Ideal)) :
    hostAdj (F := Ideal) e = Cert.ReferenceIdeal.Read.val_main_v34 (F := Ideal) e := by
  have hz : broadcastInDim S16384x16384 ![] bcast_S_S16384x16384 (constant (F := Ideal) S_ .bf16 0x0000#16)
      = Cert.ReferenceIdeal.Read.val_main_v4 (F := Ideal) := funext fun i => by
    show Ideal.ofBits .bf16 0x0000#16 = Ideal.ofBits .f32 0x00000000#32
    rw [Ideal.ofBits_zero_bf16, Ideal.ofBits_zero_f32]
  have hu : broadcastInDim S524288 ![] bcast_S_S524288 (constant (F := Ideal) S_ .bf16 0x3F80#16)
      = Cert.ReferenceIdeal.Read.val_main_v18 (F := Ideal) := funext fun i => by
    show Ideal.ofBits .bf16 0x3F80#16 = Ideal.ofBits .f32 0x3F800000#32
    rw [Ideal.ofBits_one_bf16, Ideal.ofBits_one_f32]
  unfold hostAdj
  rw [hz, hu]
  rfl

/-- The low-precision features are the features: a change of float format is the identity. -/
theorem featLo_ideal (m : (ℓ : Loc nD τ sig) → Buf (Elt Ideal) ℓ) (c : Dev nD) :
    (V m c main_v35 : S16384x32.Idx → EReal) = m ((c : Thread nD τ).loc main_arg0) := by
  rw [featLo_eq]
  rfl

end Cert.KernelIdeal.HostSide

end
-- ==== Proof.KernelResult.lean ====
/-
  The kernel's result array is the layer.

  The output block is written back only after the last stride of a row tile, that is at the points t with t % 4 = 3. There the
  accumulator has just been updated for the fourth time, so its entry (p, j) is the whole message of node 1024·(t/4) + p in
  channel j, and the block stored is, entry by entry, the layer at node 1024·(t/4) + p: the node's own feature row against the
  update weights plus the update bias, plus its messages against the aggregation weights plus the aggregation bias. Block t of
  the result array is rows 1024·(t/4) … 1024·(t/4) + 1023, and the sixteen last strides cover all 16384 rows (row r lies in the
  block of point 4·(r / 1024) + 3), so the array ends holding the layer at every entry.
-/
import proofs.«166728_j14061722927248_1_alg».proof.Proof.Gen.KernelIdeal.Value
import proofs.«166728_j14061722927248_1_alg».proof.Proof.KernelAccum
import proofs.«166728_j14061722927248_1_alg».proof.Proof.KernelHost

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Accum Cert.GraphLayer

variable (m : (ℓ : Loc nD τ sig) → Buf (Elt Ideal) ℓ) (ρ : Dev nD → PrngReg)

/-- The layer of the arrays the call is handed: the adjacency and the two transposed weight matrices as the host part leaves
    them, the features and the two biases as launched. -/
abbrev resultArr (c : Dev nD) : Buf (Elt Ideal) ((c : Thread nD τ).loc main_v40) :=
  layer (adjArr m c) (m ((c : Thread nD τ).loc main_arg0)) (waArr m c) (wuArr m c)
    (m ((c : Thread nD τ).loc main_arg3)) (m ((c : Thread nD τ).loc main_arg5))

/-- The low-precision features the accumulator reads are the features as launched. -/
theorem featLo_launch (c : Dev nD) : (featLoArr m c : S16384x32.Idx → EReal) = m ((c : Thread nD τ).loc main_arg0) :=
  HostSide.featLo_ideal m c

/-- After a last stride the updated accumulator holds the whole messages of the row tile. -/
theorem messages_at (c : Dev nD) (t : Fin cfg0.N) (h0 : ¬t.val % 4 = 0) (h1 : t.val % 4 = 3) (p : Fin 1024) (j : Fin 32) :
    k0_pay2 (F := Ideal) (outsAt0 m c (t.val - 1) (Nat.lt_of_le_of_lt (Nat.sub_le _ _) t.isLt)).2 (adjTile m c t) (featLoTile m c t) (ix2 p j)
      = message (adjArr m c) (m ((c : Thread nD τ).loc main_arg0)) (nodeAt t.val (point_lt t) p) j := by
  have hN := point_lt t
  have hprev : (outsAt0 m c (t.val - 1) (Nat.lt_of_le_of_lt (Nat.sub_le _ _) t.isLt)).2 (ix2 p j)
      = partialMessage (adjArr m c) (featLoArr m c) (nodeAt t.val hN p) j (t.val % 4) := by
    rw [acc_eq m c (t.val - 1) _ p j]
    have hnode : nodeAt (t.val - 1) (by omega) p = nodeAt t.val hN p :=
      Fin.ext (by show 1024 * ((t.val - 1) / 4) + p.val = 1024 * (t.val / 4) + p.val; omega)
    have hk : (t.val - 1) % 4 + 1 = t.val % 4 := by omega
    rw [hnode, hk]
  rw [update_at m c t _ p j hprev, h1, partialMessage_four, featLo_launch]

/-- Window 7 is never cut: what is written back of a block is the block, entry by entry. -/
theorem cut_apply (t : Fin cfg0.N) (X : Vec Ideal S1024x32 .f32) (p : Fin 1024) (d : Fin 32) :
    (cfg0.win 7).cut (grid0.coords t) X (ix2 p d) = X (ix2 p d) :=
  congrArg X (funext fun a => Fin.ext (by match a with | ⟨0, _⟩ => rfl | ⟨1, _⟩ => rfl))

/-- WHAT A LAST STRIDE WRITES BACK is its block of the layer. -/
theorem flushed_eq (c : Dev nD) (t : Fin cfg0.N) (hf : (cfg0.win 7).flush t = true) :
    (dats m 0 c).flushed 7 t = ((cfg0.win 7).blk t).view.read (Elt Ideal) (resultArr m c) := by
  have h1 : t.val % 4 = 3 := (flush0_7 t).mp hf
  have h0 : ¬t.val % 4 = 0 := by omega
  have hN := point_lt t
  rw [Value.flushed7_C m c t h0 h1,
    Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2]
  funext y
  obtain ⟨p, d, rfl⟩ : ∃ (p : Fin 1024) (d : Fin 32), y = ix2 p d :=
    ⟨y 0, y 1, funext fun a => by match a with | ⟨0, _⟩ => rfl | ⟨1, _⟩ => rfl⟩
  rw [read_out c (resultArr m c) t p d]
  refine (cut_apply t (k0_pay3 (F := Ideal) (k0_pay2 (outsAt0 m c (t.val - 1) (Nat.lt_of_le_of_lt (Nat.sub_le _ _) t.isLt)).2 (adjTile m c t) (featLoTile m c t))
    (waBlk m c t) (baBlk m c t) (featRows m c t) (wuBlk m c t) (buBlk m c t)) p d).trans ?_
  rw [Body.output_apply]
  show _ = layerAt (adjArr m c) (m ((c : Thread nD τ).loc main_arg0)) (waArr m c) (wuArr m c)
    (m ((c : Thread nD τ).loc main_arg3)) (m ((c : Thread nD τ).loc main_arg5)) (nodeAt t.val hN p) ⟨d.val, d.isLt⟩
  unfold layerAt
  refine congrArg₂ (· + ·)
    (congrArg₂ (· + ·) (Finset.sum_congr rfl fun j _ => congrArg₂ (· * ·) ?_ ?_) ?_)
    (congrArg₂ (· + ·) (Finset.sum_congr rfl fun j _ => congrArg₂ (· * ·) ?_ ?_) ?_)
  · exact (featRows_apply m c t p j).trans (congrFun (V_main_arg0 m c) _)
  · exact wuBlk_apply m c t j d
  · exact (buBlk_apply m c t 0 d).trans ((congrFun (HostSide.bu_eq m c) _).trans (HostSide.biasRow_apply _ d))
  · exact messages_at m c t h0 h1 p j
  · exact waBlk_apply m c t j d
  · exact (baBlk_apply m c t 0 d).trans ((congrFun (HostSide.ba_eq m c) _).trans (HostSide.biasRow_apply _ d))

/-- An index of the result array is in point t's block iff each coordinate is in the block's range on its axis. -/
theorem mem_blk (t : Fin cfg0.N) (i : S16384x32.Idx) :
    i ∈ ((cfg0.win 7).blk t).view.set
      ↔ ∀ a : Fin 2, win0_7.index t a * S1024x32.size a ≤ (i a).val ∧ (i a).val < win0_7.index t a * S1024x32.size a + S1024x32.size a := by
  show i ∈ ((View.whole main_v40).slice (win0_7.rect t)).set ↔ _
  rw [View.set_slice_whole, Rect.mem_set_unit]
  exact Iff.rfl

/-- Every row of the result array lies in the block of the last stride of its row tile. -/
theorem cover (c : Dev nD) (i : ((cfg0.win 7).arr.view.loc (c.tc : Thread nD τ)).2.ty.Idx) :
    ∃ t : Fin cfg0.N, (cfg0.win 7).flush t = true ∧ i ∈ ((cfg0.win 7).blk t).view.set := by
  have hi0 : (i 0).val < 16384 := (i 0).isLt
  have hi1 : (i 1).val < 32 := (i 1).isLt
  let t : Fin cfg0.N := ⟨4 * ((i 0).val / 1024) + 3, by rw [show cfg0.N = 64 from N_0]; omega⟩
  have ht : t.val = 4 * ((i 0).val / 1024) + 3 := rfl
  obtain ⟨e0, e1⟩ := IndexMaps.out t
  refine ⟨t, (flush0_7 t).mpr (by rw [ht]; omega), ?_⟩
  rw [mem_blk]
  intro a
  match a with
  | ⟨0, _⟩ =>
    show win0_7.index t (0 : Fin 2) * 1024 ≤ (i 0).val ∧ (i 0).val < win0_7.index t (0 : Fin 2) * 1024 + 1024
    rw [e0, ht]; omega
  | ⟨1, _⟩ =>
    show win0_7.index t (1 : Fin 2) * 32 ≤ (i 1).val ∧ (i 1).val < win0_7.index t (1 : Fin 2) * 32 + 32
    rw [e1]; omega

/-- THE ARRAY after the run: the layer. -/
theorem final (c : Dev nD) : (dats m 0 c).arrAt 7 cfg0.N = resultArr m c :=
  (dats m 0 c).arrAt_eq_of_cover 7 (resultArr m c) (flushed_eq m c) (cover c)

/-- The run, read: the result array at the layer, the arguments unchanged. -/
theorem run : θ_run defs (onTc (τ := τ) (main (F := Ideal))) ⟨m, fun _ => 0, ρ⟩ fun r => ∀ c : Dev nD,
      r.2.mem ((c : Thread nD τ).loc main_v40) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

/-- The same layer over the reference program's own terms: the adjacency the host part builds is the reference's, and the two
    transposes are the reference's transposes. -/
theorem resultArr_eq_reference (c : Dev nD) :
    resultArr m c
      = layer (Cert.ReferenceIdeal.Read.val_main_v34 (F := Ideal) (m ((c : Thread nD τ).loc main_arg1)))
          (m ((c : Thread nD τ).loc main_arg0))
          (Cert.ReferenceIdeal.Read.val_main_v36 (F := Ideal) (m ((c : Thread nD τ).loc main_arg2)))
          (Cert.ReferenceIdeal.Read.val_main_v41 (F := Ideal) (m ((c : Thread nD τ).loc main_arg4)))
          (m ((c : Thread nD τ).loc main_arg3)) (m ((c : Thread nD τ).loc main_arg5)) := by
  have hA : (adjArr m c : S16384x16384.Idx → EReal)
      = Cert.ReferenceIdeal.Read.val_main_v34 (F := Ideal) (m ((c : Thread nD τ).loc main_arg1)) :=
    (HostSide.adj_eq m c).trans (HostSide.hostAdj_eq_reference _)
  have hWa : (waArr m c : S32x32.Idx → EReal)
      = Cert.ReferenceIdeal.Read.val_main_v36 (F := Ideal) (m ((c : Thread nD τ).loc main_arg2)) := HostSide.wa_eq m c
  have hWu : (wuArr m c : S32x32.Idx → EReal)
      = Cert.ReferenceIdeal.Read.val_main_v41 (F := Ideal) (m ((c : Thread nD τ).loc main_arg4)) := HostSide.wu_eq m c
  show layer (adjArr m c) _ (waArr m c) (wuArr m c) _ _ = _
  rw [hA, hWa, hWu]

end Cert.KernelIdeal.Result

end
-- ==== Proof.lean ====
/-
  One message-passing layer of a graph network on a dense adjacency matrix: the tiled kernel against the plain reference.

  Both programs first build the 16384 × 16384 adjacency A from the edge list by the same two scatters of ones into zeros (the
  kernel in a low-precision float format, the reference in single precision) and then compute, for node r and channel d,

      ( Σ_j x(r, j) · Wuᵀ(j, d) + bu(d) )  +  ( Σ_j ( Σ_n A(r, n) · x(n, j) ) · Waᵀ(j, d) + ba(d) ).

  The reference does this with three whole matrix products. The kernel walks a 16 × 4 grid: for each tile of 1024 rows it
  accumulates the product of the adjacency with the features in four strides of 4096 columns, starting from zero, and after the
  fourth stride applies the two small products and the biases to the accumulated messages and writes the 1024 rows out.

  Over the extended reals a change of float format is the identity, the low-precision words for zero and one are the numbers 0 and
  1, and addition is commutative and associative, so the four partial sums are the whole sum and the two programs end with the same
  array. Nothing asks any entry to be finite, and the ideal pass rewrote nothing in the kernel, so `preserves` holds trivially.

  Where each step lives: Layer (the layer as one function, and the partial sums); ReferenceLayer (the reference's result is the
  layer); KernelBody (the body's stored values read at an entry); KernelPieces (what one run of the body leaves, case by case);
  KernelIndexMaps and KernelBlocks (what each block holds); KernelHost (what the host part hands the call, and that its
  adjacency is the reference's); KernelAccum (the accumulator after every point, by induction over the points); KernelResult
  (the result array is the layer). The three frames are the generated ones.
-/
import proofs.«166728_j14061722927248_1_alg».proof.Defs
import proofs.«166728_j14061722927248_1_alg».proof.Proof.Gen.Kernel
import proofs.«166728_j14061722927248_1_alg».proof.Proof.Gen.Kernel.Skeleton
import proofs.«166728_j14061722927248_1_alg».proof.Proof.Gen.Kernel.Launch
import proofs.«166728_j14061722927248_1_alg».proof.Proof.Gen.Kernel.Points
import proofs.«166728_j14061722927248_1_alg».proof.Proof.Gen.Kernel.Frame
import proofs.«166728_j14061722927248_1_alg».proof.Proof.Gen.KernelIdeal
import proofs.«166728_j14061722927248_1_alg».proof.Proof.Gen.KernelIdeal.Skeleton
import proofs.«166728_j14061722927248_1_alg».proof.Proof.Gen.KernelIdeal.Launch
import proofs.«166728_j14061722927248_1_alg».proof.Proof.Gen.KernelIdeal.Points
import proofs.«166728_j14061722927248_1_alg».proof.Proof.Gen.KernelIdeal.Frame
import proofs.«166728_j14061722927248_1_alg».proof.Proof.Gen.ReferenceIdeal
import proofs.«166728_j14061722927248_1_alg».proof.Proof.Gen.Pre_finite_inputs
import proofs.«166728_j14061722927248_1_alg».proof.Proof.Gen.KernelIdeal.Value
import proofs.«166728_j14061722927248_1_alg».proof.Proof.Gen.ReferenceIdeal.Run
import proofs.«166728_j14061722927248_1_alg».proof.Proof.Gen.ReferenceIdeal.Read
import proofs.«166728_j14061722927248_1_alg».proof.Proof.ReferenceLayer
import proofs.«166728_j14061722927248_1_alg».proof.Proof.KernelResult
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of those arguments. -/
theorem algebraic : Cert.algebraic_KernelIdeal_ReferenceIdeal := by
  intro m ρ m' ρ' _ hagree
  refine ⟨fun c => Cert.KernelIdeal.Result.resultArr m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v46_eq, a0, a1, a2, a3, a4, a5, Cert.ReferenceIdeal.AsLayer.result_eq]
  exact (Cert.KernelIdeal.Result.resultArr_eq_reference m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
